-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256 .f32) (main_arg7 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x256 .f32) (main_arg1 : IVec S2x320000 32) (main_arg2 : FVec F S512x256 .f32) (main_arg3 : FVec F S256 .f32) (main_arg4 : FVec F S512x256 .f32) (main_arg5 : FVec F S256 .f32) (main_arg6 : FVec F S256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_v13 main_v16
-- ==== Kernel.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S256x256 : Shape := ⟨2, ![256, 256]⟩
abbrev S1x256 : Shape := ⟨2, ![1, 256]⟩
abbrev S4000x256 : Shape := ⟨2, ![4000, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 50
  | .vmem => 20
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S10000x256, .bf16⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x256, .bf16⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .bf16⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .bf16⟩
  | .hbm, ⟨35, _⟩ => ⟨S1x256, .f32⟩
  | .hbm, ⟨36, _⟩ => ⟨S320000x256, .f32⟩
  | .hbm, ⟨37, _⟩ => ⟨S_, .f32⟩
  | .hbm, ⟨38, _⟩ => ⟨S10000x256, .f32⟩
  | .hbm, ⟨39, _⟩ => ⟨S320000x1, .i32⟩
  | .hbm, ⟨40, _⟩ => ⟨S10000x256, .f32⟩
  | .hbm, ⟨41, _⟩ => ⟨S10000x256, .bf16⟩
  | .hbm, ⟨42, _⟩ => ⟨S256x256, .f32⟩
  | .hbm, ⟨43, _⟩ => ⟨S256x256, .bf16⟩
  | .hbm, ⟨44, _⟩ => ⟨S256x256, .f32⟩
  | .hbm, ⟨45, _⟩ => ⟨S256x256, .bf16⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S10000x256, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  slices_S512x256_S256x256_0_0 : S512x256.Slices ![0, 0] S256x256
  slices_S512x256_S256x256_256_0 : S512x256.Slices ![256, 0] S256x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  gather_S10000x256_S320000x1_S320000x256_1_0_n_n_0_1_1256_wf : GatherDims.WF S10000x256 S320000x1 S320000x256 [1] [0] [] [0] [] 1 ![1, 256]
  dot_S4000x256_S256x256_S4000x256_1_0_0_1_n_n_wf : DotDims.WF S4000x256 S256x256 S4000x256 [1] [0] [0] [1] [] []
  scatter_S10000x256_S320000x1_S320000x256_1_0_0_1_wf : ScatterDims.WF S10000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .bf16 = 32 ∨ (Rect.block (s := S320000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S320000x256.size a
  hwx0_1 : ∀ i : grid0.Coords, EltTy.bits .bf16 = 32 ∨ (Rect.block (s := S320000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S320000x256.size a
  hwx0_5 : ∀ i : grid0.Coords, EltTy.bits .f32 = 32 ∨ (Rect.block (s := S320000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .bf16 = 32 ∨ (Rect.block (s := S10000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .bf16 = 32 ∨ (Rect.block (s := S10000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S10000x256.size a
  hwx1_7 : ∀ i : grid1.Coords, EltTy.bits .f32 = 32 ∨ (Rect.block (s := S10000x256) S2000x256.size (cc1_transform_7 i) (hinb1_7 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v11) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x256 : Shape := ⟨2, ![1, 256]⟩
abbrev S10000x512 : Shape := ⟨2, ![10000, 512]⟩
abbrev S10000 : Shape := ⟨1, ![10000]⟩
abbrev S10000x1 : Shape := ⟨2, ![10000, 1]⟩

abbrev nBuf : Space → Nat
  | .hbm => 79
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x512, .f32⟩
  | .hbm, ⟨31, _⟩ => ⟨S320000x256, .f32⟩
  | .hbm, ⟨32, _⟩ => ⟨S1x256, .f32⟩
  | .hbm, ⟨33, _⟩ => ⟨S320000x256, .f32⟩
  | .hbm, ⟨34, _⟩ => ⟨S320000x256, .f32⟩
  | .hbm, ⟨35, _⟩ => ⟨S_, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S10000x256, .f32⟩
  | .hbm, ⟨40, _⟩ => ⟨S320000x1, .i32⟩
  | .hbm, ⟨41, _⟩ => ⟨S10000x256, .f32⟩
  | .hbm, ⟨42, _⟩ => ⟨S10000x512, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S10000x256, .f32⟩
  | .hbm, ⟨57, _⟩ => ⟨S10000x256, .f32⟩
  | .hbm, ⟨58, _⟩ => ⟨S10000x256, .f32⟩
  | .hbm, ⟨59, _⟩ => ⟨S_, .f32⟩
  | .hbm, ⟨60, _⟩ => ⟨S10000, .f32⟩
  | .hbm, ⟨61, _⟩ => ⟨S10000x1, .f32⟩
  | .hbm, ⟨62, _⟩ => ⟨S_, .f32⟩
  | .hbm, ⟨63, _⟩ => ⟨S10000x1, .f32⟩
  | .hbm, ⟨64, _⟩ => ⟨S10000x1, .f32⟩
  | .hbm, ⟨65, _⟩ => ⟨S10000x256, .f32⟩
  | .hbm, ⟨66, _⟩ => ⟨S10000x256, .f32⟩
  | .hbm, ⟨67, _⟩ => ⟨S_, .f32⟩
  | .hbm, ⟨68, _⟩ => ⟨S10000x1, .f32⟩
  | .hbm, ⟨69, _⟩ => ⟨S10000x1, .f32⟩
  | .hbm, ⟨70, _⟩ => ⟨S10000x1, .f32⟩
  | .hbm, ⟨71, _⟩ => ⟨S10000x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | .hbm, ⟨76, _⟩ => ⟨S1x256, .f32⟩
  | .hbm, ⟨77, _⟩ => ⟨S10000x256, .f32⟩
  | .hbm, ⟨78, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  concatenates_S10000x256_S10000x256_S10000x512_d1 : Shape.Concatenates [S10000x256, S10000x256] S10000x512 1
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x512_S512x256_S320000x256_1_0_0_1_n_n_wf : DotDims.WF S320000x512 S512x256 S320000x256 [1] [0] [0] [1] [] []
  scatter_S10000x256_S320000x1_S320000x256_1_0_0_1_wf : ScatterDims.WF S10000x256 S320000x1 S320000x256 [1] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.RowLaws.lean ====
/-
  The mathematics shared by both programs, stated row by row over the extended reals.

  A node update is two affine-then-clamp layers with a scatter-add between them, then a row normalisation:
    * `affRelu a b wa wb β`: entry `q` of one row is `max (Σ_k a k · wa k q + Σ_k b k · wb k q + β q) 0`
      — the product of the concatenated row `a ‖ b` with a 512 × 256 matrix, split at its middle row;
    * `rowNorm h γ β`: with `μ` the mean of the 256 entries of `h` and `σ²` the mean of the squared deviations,
      entry `q` is `(h q - μ) · rsqrt (σ² + ε) · γ q + β q`.
  The only law needed between the two programs is that a sum over 512 indices is the sum over the first 256 plus
  the sum over the last 256 (commutative-monoid arithmetic: it holds on the extended reals with no finiteness).
-/
import Idealize.ShloMosaic.PureOps.Ideal
import Idealize.ShloMosaic.PureOps.Ideal.Laws
import Idealize.ShloMosaic.Lib.ValueIdx

noncomputable section

namespace Cert.RowLaws

open Idealize.ShloMosaic Idealize.ShloMosaic.ValueIdx

/-- The float zero both programs clamp against and start their sums from. -/
abbrev zeroLit : EReal := Ideal.ofBits .f32 0x00000000#32
/-- The row length 256 as the float both programs divide by. -/
abbrev lenLit : EReal := Ideal.ofBits .f32 0x43800000#32
/-- The variance offset both programs add (the float nearest 1e-5). -/
abbrev epsLit : EReal := Ideal.ofBits .f32 0x3727C5AC#32

/-- A sum over 512 indices is the sum over the first 256 plus the sum over the last 256. -/
theorem sum_512 (f : Fin 512 → EReal) :
    ∑ k : Fin 512, f k = (∑ k : Fin 256, f ⟨k.val, by omega⟩) + ∑ k : Fin 256, f ⟨256 + k.val, by omega⟩ := by
  have h := Fin.sum_univ_add (M := EReal) (a := 256) (b := 256) (f : Fin (256 + 256) → EReal)
  exact h

/-- One row of the two-part affine layer, clamped at zero. -/
def affRelu (a b : Fin 256 → EReal) (wa wb : Fin 256 → Fin 256 → EReal) (bias : Fin 256 → EReal) (q : Fin 256) : EReal :=
  max ((∑ k : Fin 256, a k * wa k q) + (∑ k : Fin 256, b k * wb k q) + bias q) zeroLit

/-- The same row written as ONE product with the 512-row matrix whose halves are `wa` and `wb`:
    `c` is the concatenated row, `w` the whole matrix. -/
theorem affRelu_of_cat (c : Fin 512 → EReal) (w : Fin 512 → Fin 256 → EReal) (bias : Fin 256 → EReal) (q : Fin 256) :
    max ((∑ k : Fin 512, c k * w k q) + bias q) zeroLit
      = affRelu (fun k => c ⟨k.val, by omega⟩) (fun k => c ⟨256 + k.val, by omega⟩)
          (fun k q => w ⟨k.val, by omega⟩ q) (fun k q => w ⟨256 + k.val, by omega⟩ q) bias q := by
  unfold affRelu
  rw [sum_512 (fun k => c k * w k q)]

/-- One row normalised: mean and variance over its 256 entries, then scale and shift. -/
def rowNorm (h γ β : Fin 256 → EReal) (q : Fin 256) : EReal :=
  (h q - Ideal.div (∑ k : Fin 256, h k) lenLit)
      * Ideal.rsqrt (Ideal.div (∑ k : Fin 256, (h k - Ideal.div (∑ k' : Fin 256, h k') lenLit) * (h k - Ideal.div (∑ k' : Fin 256, h k') lenLit)) lenLit + epsLit)
      * γ q + β q

/-! ## The arrays both programs compute, row by row -/

abbrev SE : Shape := ⟨2, ![320000, 256]⟩
abbrev SN : Shape := ⟨2, ![10000, 256]⟩
abbrev SW : Shape := ⟨2, ![256, 256]⟩
abbrev SR : Shape := ⟨2, ![1, 256]⟩

abbrev SW2 : Shape := ⟨2, ![512, 256]⟩
abbrev SB : Shape := ⟨1, ![256]⟩

/-- The first 256 rows of a 512 × 256 matrix. -/
def topHalf (w : SW2.Idx → EReal) : SW.Idx → EReal :=
  fun i => w (ix2 (⟨(i 0).val, by have := idx2_lt0 i; omega⟩ : Fin 512) (i 1))
/-- Its last 256 rows. -/
def botHalf (w : SW2.Idx → EReal) : SW.Idx → EReal :=
  fun i => w (ix2 (⟨256 + (i 0).val, by have := idx2_lt0 i; omega⟩ : Fin 512) (i 1))
/-- A length-256 vector as a 1 × 256 row. -/
def asRow (b : SB.Idx → EReal) : SR.Idx → EReal := fun i => b (ix1 (i 1))

/-- The per-edge messages: row `e` is `affRelu` of row `e` of the two gathered arrays. -/
def msgArr (xr xc : SE.Idx → EReal) (wa wb : SW.Idx → EReal) (bias : SR.Idx → EReal) : SE.Idx → EReal :=
  fun i => affRelu (fun k => xr (ix2 (i 0) k)) (fun k => xc (ix2 (i 0) k)) (fun k q => wa (ix2 k q)) (fun k q => wb (ix2 k q))
    (fun q => bias (ix2 0 q)) (i 1)

/-- The per-node result: row `n` is `rowNorm` of `affRelu` of row `n` of the features and of the aggregate. -/
def updArr (x a : SN.Idx → EReal) (wa wb : SW.Idx → EReal) (bias γ β : SR.Idx → EReal) : SN.Idx → EReal :=
  fun i => rowNorm (affRelu (fun k => x (ix2 (i 0) k)) (fun k => a (ix2 (i 0) k)) (fun k q => wa (ix2 k q)) (fun k q => wb (ix2 k q))
    (fun q => bias (ix2 0 q))) (fun q => γ (ix2 0 q)) (fun q => β (ix2 0 q)) (i 1)

end Cert.RowLaws

end
-- ==== Proof.MsgRegion.lean ====
/-
  The first kernel region, read as a value: after its 80 grid points have written their 4000-row blocks back, the
  message array holds, row by row, the two-part affine layer clamped at zero (`RowLaws.msgArr`) of the two gathered
  arrays, the two weight halves and the bias row, whatever the contents the region is entered with.
-/
import proofs.«154356_j48120813584763_1_alg».proof.Proof.Gen.KernelIdeal.Frame
import proofs.«154356_j48120813584763_1_alg».proof.Proof.RowLaws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLaws

-- The TensorCore's buffer contents when the region is entered: a parameter, as in the frame.
variable (V : (c : Dev nD) → (b : Ref sig .tc) → Buf (Elt Ideal) ((c : Thread nD τ).loc b))

/-! ## One entry of a block product

The block product contracts the second axis of a 4000 × 256 block with the first axis of a 256 × 256 matrix: entry
`(p, q)` is the sum over `k` of the block's entry `(p, k)` times the matrix's entry `(k, q)`. -/

/-- The left operand is read on its first axis at the result's row. -/
theorem lhs_axis0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- The left operand is read on its second axis at the contracted index. -/
theorem lhs_axis1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- The right operand is read on its first axis at the contracted index. -/
theorem rhs_axis0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- The right operand is read on its second axis at the result's column. -/
theorem rhs_axis1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Entry `(p, q)` of a block product started from zero: row `p` of the block against column `q` of the matrix. -/
theorem blockProduct_apply (a : FVec Ideal S4000x256 .bf16) (w : FVec Ideal S256x256 .bf16) (p : Fin 4000) (q : Fin 256) :
    matmul dot_S4000x256_S256x256_S4000x256_1_0_0_1_n_n none a w (constant (F := Ideal) S4000x256 .f32 0x00000000#32) (ix2 p q)
      = ∑ k : Fin 256, a (ix2 p k) * w (ix2 k q) := by
  refine (Ideal.matmul_constant_zero_apply dot_S4000x256_S256x256_S4000x256_1_0_0_1_n_n none a w (ix2 p q)).trans ?_
  rw [← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun ax => Fin.ext (by
    match ax with
    | ⟨0, _⟩ => exact lhs_axis0 _ _
    | ⟨1, _⟩ => exact (lhs_axis1 _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun ax => Fin.ext (by
    match ax with
    | ⟨0, _⟩ => exact (rhs_axis0 _ _).trans hk
    | ⟨1, _⟩ => exact rhs_axis1 _ _)
  rw [el, er]

/-! ## The body's result at an entry -/

/-- Entry `(p, q)` of what the body stores, from its five loaded blocks: the two-part affine layer clamped at zero of row
    `p` of the two row blocks, the two matrices and the bias row. -/
theorem payload_apply (x0 x1 : Vec Ideal S4000x256 .bf16) (x2 x3 : Vec Ideal S256x256 .bf16) (x4 : Vec Ideal S1x256 .f32)
    (p : Fin 4000) (q : Fin 256) :
    k0_pay1 (F := Ideal) x0 x1 x2 x3 x4 (ix2 p q)
      = affRelu (fun k => x0 (ix2 p k)) (fun k => x1 (ix2 p k)) (fun k q => x2 (ix2 k q)) (fun k q => x3 (ix2 k q))
          (fun q => x4 (ix2 0 q)) q := by
  unfold k0_pay1 affRelu
  simp only [shapeCast_self]
  show max ((matmul dot_S4000x256_S256x256_S4000x256_1_0_0_1_n_n none x0 x2 (constant (F := Ideal) S4000x256 .f32 0x00000000#32) (ix2 p q)
      + matmul dot_S4000x256_S256x256_S4000x256_1_0_0_1_n_n none x1 x3 (constant (F := Ideal) S4000x256 .f32 0x00000000#32) (ix2 p q))
      + broadcastTo S4000x256 x4 broadcasts_S1x256_S4000x256 (ix2 p q)) (Ideal.ofBits .f32 0x00000000#32) = _
  rw [blockProduct_apply, blockProduct_apply, broadcastTo_1b_ab_apply]

/-! ## From the 80 blocks to the array

Grid point `t` loads rows `4000 t … 4000 t + 3999` of the two gathered arrays, the two whole matrices and the bias row,
and writes its result back as rows `4000 t … 4000 t + 3999` of the message array. The 80 blocks tile its 320000 rows. -/

/-- Every block the body touches starts at offset zero on both axes. -/
theorem zero_offsets : (![0, 0] : Fin 2 → Nat) = fun _ => 0 := funext fun a => by fin_cases a <;> rfl

/-- The block indices over the 80 grid points: the two row-blocked inputs and the output are at row block `t`, column
    block 0; the two matrices and the bias row are always at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first row block at point `t` is row `4000 t + p` of the first gathered array. -/
theorem firstRows_apply (c : Dev nD) (t : Fin cfg0.N) (p : Fin 4000) (k : Fin 256) (r : Fin 320000)
    (hr : r.val = t.val * 4000 + p.val) :
    (iblk0 (F := Ideal) V c 0 t : Vec Ideal S4000x256 .bf16) (ix2 p k) = (V c main_v11 : S320000x256.Idx → EReal) (ix2 r k) := by
  obtain ⟨e0, e1, -⟩ := block_indices t
  show (V c main_v11 : S320000x256.Idx → EReal) (((cfg0.win 0).blk t).view.emb (ix2 p k)) = _
  refine congrArg (V c main_v11 : S320000x256.Idx → EReal) (funext fun a => Fin.ext ?_)
  match a with
  | ⟨0, _⟩ => show win0_0.index t (0 : Fin 2) * 4000 + 1 * p.val = r.val; omega
  | ⟨1, _⟩ => show win0_0.index t (1 : Fin 2) * 256 + 1 * k.val = k.val; omega

/-- Row `p` of the second row block at point `t` is row `4000 t + p` of the second gathered array. -/
theorem secondRows_apply (c : Dev nD) (t : Fin cfg0.N) (p : Fin 4000) (k : Fin 256) (r : Fin 320000)
    (hr : r.val = t.val * 4000 + p.val) :
    (iblk0 (F := Ideal) V c 1 t : Vec Ideal S4000x256 .bf16) (ix2 p k) = (V c main_v18 : S320000x256.Idx → EReal) (ix2 r k) := by
  obtain ⟨-, -, e0, e1, -⟩ := block_indices t
  show (V c main_v18 : S320000x256.Idx → EReal) (((cfg0.win 1).blk t).view.emb (ix2 p k)) = _
  refine congrArg (V c main_v18 : S320000x256.Idx → EReal) (funext fun a => Fin.ext ?_)
  match a with
  | ⟨0, _⟩ => show win0_1.index t (0 : Fin 2) * 4000 + 1 * p.val = r.val; omega
  | ⟨1, _⟩ => show win0_1.index t (1 : Fin 2) * 256 + 1 * k.val = k.val; omega

/-- The first matrix's block at every point is the whole matrix. -/
theorem firstMatrix_apply (c : Dev nD) (t : Fin cfg0.N) (k q : Fin 256) :
    (iblk0 (F := Ideal) V c 2 t : Vec Ideal S256x256 .bf16) (ix2 k q) = (V c main_v20 : S256x256.Idx → EReal) (ix2 k q) := by
  obtain ⟨-, -, -, -, e0, e1, -⟩ := block_indices t
  show (V c main_v20 : S256x256.Idx → EReal) (((cfg0.win 2).blk t).view.emb (ix2 k q)) = _
  refine congrArg (V c main_v20 : S256x256.Idx → EReal) (funext fun a => Fin.ext ?_)
  match a with
  | ⟨0, _⟩ => show win0_2.index t (0 : Fin 2) * 256 + 1 * k.val = k.val; omega
  | ⟨1, _⟩ => show win0_2.index t (1 : Fin 2) * 256 + 1 * q.val = q.val; omega

/-- The second matrix's block at every point is the whole matrix. -/
theorem secondMatrix_apply (c : Dev nD) (t : Fin cfg0.N) (k q : Fin 256) :
    (iblk0 (F := Ideal) V c 3 t : Vec Ideal S256x256 .bf16) (ix2 k q) = (V c main_v22 : S256x256.Idx → EReal) (ix2 k q) := by
  obtain ⟨-, -, -, -, -, -, e0, e1, -⟩ := block_indices t
  show (V c main_v22 : S256x256.Idx → EReal) (((cfg0.win 3).blk t).view.emb (ix2 k q)) = _
  refine congrArg (V c main_v22 : S256x256.Idx → EReal) (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- The bias row's block at every point is the whole row. -/
theorem biasRow_apply (c : Dev nD) (t : Fin cfg0.N) (q : Fin 256) :
    (iblk0 (F := Ideal) V c 4 t : Vec Ideal S1x256 .f32) (ix2 (0 : Fin 1) q) = (V c main_v23 : S1x256.Idx → EReal) (ix2 (0 : Fin 1) q) := by
  obtain ⟨-, -, -, -, -, -, -, -, e0, e1, -⟩ := block_indices t
  show (V c main_v23 : S1x256.Idx → EReal) (((cfg0.win 4).blk t).view.emb (ix2 (0 : Fin 1) q)) = _
  refine congrArg (V c main_v23 : S1x256.Idx → EReal) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-- What point `t` writes back is block `t` of the message array's row-by-row specification. -/
theorem writeBack_eq (c : Dev nD) (t : Fin cfg0.N) :
    (dat0 (F := Ideal) V c).flushed 5 t = ((cfg0.win 5).blk t).view.read (Elt Ideal)
      (msgArr (V c main_v11) (V c main_v18) (V c main_v20) (V c main_v22) (V c main_v23)) := by
  show (cfg0.win 5).cut (grid0.coords t) ((dat0 (F := Ideal) V c).after 5 t) = _
  rw [after0_5]
  unfold out0_5
  rw [View.canon_unit_zero zero_offsets]
  simp only [View.ld_unit_zero (S := S4000x256) zero_offsets, View.ld_unit_zero (S := S256x256) zero_offsets,
    View.ld_unit_zero (S := S1x256) zero_offsets]
  obtain ⟨-, -, -, -, -, -, -, -, -, -, e0, e1⟩ := block_indices t
  have ht : t.val < 80 := Nat.lt_of_lt_of_eq t.isLt N_0
  funext j
  obtain ⟨p, q, rfl⟩ : ∃ (p : Fin 4000) (q : Fin 256), j = ix2 p q := ⟨j 0, j 1, eq_ix2 j⟩
  have hp : p.val < 4000 := p.isLt
  -- the array row this block row is
  have eo : ((cfg0.win 5).blk t).view.emb (ix2 p q) = (ix2 (⟨t.val * 4000 + p.val, by omega⟩ : Fin 320000) q : S320000x256.Idx) := by
    funext a; apply Fin.ext
    match a with
    | ⟨0, _⟩ => show win0_5.index t (0 : Fin 2) * 4000 + 1 * p.val = t.val * 4000 + p.val; omega
    | ⟨1, _⟩ => show win0_5.index t (1 : Fin 2) * 256 + 1 * q.val = q.val; omega
  show k0_pay1 (F := Ideal) (iblk0 V c 0 t) (iblk0 V c 1 t) (iblk0 V c 2 t) (iblk0 V c 3 t) (iblk0 V c 4 t) (ix2 p q)
    = msgArr (V c main_v11) (V c main_v18) (V c main_v20) (V c main_v22) (V c main_v23) (((cfg0.win 5).blk t).view.emb (ix2 p q))
  refine ((payload_apply _ _ _ _ _ p q).trans ?_).trans (congrArg (msgArr (V c main_v11) (V c main_v18) (V c main_v20) (V c main_v22) (V c main_v23)) eo).symm
  show affRelu _ _ _ _ _ q = affRelu _ _ _ _ _ q
  have h0 : (fun k : Fin 256 => (iblk0 (F := Ideal) V c 0 t : Vec Ideal S4000x256 .bf16) (ix2 p k))
      = fun k => (V c main_v11 : S320000x256.Idx → EReal) (ix2 (⟨t.val * 4000 + p.val, by omega⟩ : Fin 320000) k) :=
    funext fun k => firstRows_apply V c t p k _ rfl
  have h1 : (fun k : Fin 256 => (iblk0 (F := Ideal) V c 1 t : Vec Ideal S4000x256 .bf16) (ix2 p k))
      = fun k => (V c main_v18 : S320000x256.Idx → EReal) (ix2 (⟨t.val * 4000 + p.val, by omega⟩ : Fin 320000) k) :=
    funext fun k => secondRows_apply V c t p k _ rfl
  have h2 : (fun k q : Fin 256 => (iblk0 (F := Ideal) V c 2 t : Vec Ideal S256x256 .bf16) (ix2 k q))
      = fun k q => (V c main_v20 : S256x256.Idx → EReal) (ix2 k q) :=
    funext fun k => funext fun q => firstMatrix_apply V c t k q
  have h3 : (fun k q : Fin 256 => (iblk0 (F := Ideal) V c 3 t : Vec Ideal S256x256 .bf16) (ix2 k q))
      = fun k q => (V c main_v22 : S256x256.Idx → EReal) (ix2 k q) :=
    funext fun k => funext fun q => secondMatrix_apply V c t k q
  have h4 : (fun q : Fin 256 => (iblk0 (F := Ideal) V c 4 t : Vec Ideal S1x256 .f32) (ix2 (0 : Fin 1) q))
      = fun q => (V c main_v23 : S1x256.Idx → EReal) (ix2 (0 : Fin 1) q) :=
    funext fun q => biasRow_apply V c t q
  rw [h0, h1, h2, h3, h4]

/-- An index of the message array is in point `t`'s block iff each coordinate is in the block's range on its axis. -/
theorem mem_block (t : Fin cfg0.N) (i : S320000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v24).slice (win0_5.rect t)).set ↔ _
  rw [View.set_slice_whole, Rect.mem_set_unit]
  exact Iff.rfl

/-- Every row of the message array is in some point's block: row `r` in the block of point `r / 4000`. -/
theorem rows_covered (i : S320000x256.Idx) :
    ∃ t : Fin cfg0.N, (cfg0.win 5).flush t = true ∧ i ∈ ((cfg0.win 5).blk t).view.set := by
  have hi0 : (i 0).val < 320000 := idx2_lt0 i
  have hi1 : (i 1).val < 256 := idx2_lt1 i
  have hN : (i 0).val / 4000 < grid0.N := by rw [N_0]; omega
  refine ⟨⟨(i 0).val / 4000, hN⟩, flush0_5 _, ?_⟩
  rw [mem_block]
  obtain ⟨-, -, -, -, -, -, -, -, -, -, e0, e1⟩ := block_indices ⟨(i 0).val / 4000, hN⟩
  have e0' : win0_5.index ⟨(i 0).val / 4000, hN⟩ (0 : Fin 2) = (i 0).val / 4000 := e0
  intro a
  match a with
  | ⟨0, _⟩ => show win0_5.index ⟨(i 0).val / 4000, hN⟩ (0 : Fin 2) * 4000 ≤ (i 0).val ∧ (i 0).val < win0_5.index ⟨(i 0).val / 4000, hN⟩ (0 : Fin 2) * 4000 + 4000; omega
  | ⟨1, _⟩ => show win0_5.index ⟨(i 0).val / 4000, hN⟩ (1 : Fin 2) * 256 ≤ (i 1).val ∧ (i 1).val < win0_5.index ⟨(i 0).val / 4000, hN⟩ (1 : Fin 2) * 256 + 256; omega

/-- The message array after the region: `msgArr` of the region's five input arrays as it finds them. -/
theorem msg_array (c : Dev nD) :
    (dat0 (F := Ideal) V c).arrAt 5 cfg0.N
      = msgArr (V c main_v11) (V c main_v18) (V c main_v20) (V c main_v22) (V c main_v23) :=
  (dat0 (F := Ideal) V c).arrAt_eq_of_cover 5
    (msgArr (V c main_v11) (V c main_v18) (V c main_v20) (V c main_v22) (V c main_v23))
    (fun t _ => writeBack_eq V c t) rows_covered

end Cert.KernelIdeal.MsgRegion

end
-- ==== Proof.UpdRegion.lean ====
/-
  The second kernel region, read as a value: after its 5 grid points have written their 2000-row blocks back, the
  result array holds, row by row, the normalised affine layer (`RowLaws.updArr`) of the node features, the aggregate,
  the two weight halves, the bias row and the scale and shift rows, whatever the contents the region is entered with.
-/
import proofs.«154356_j48120813584763_1_alg».proof.Proof.Gen.KernelIdeal.Frame
import proofs.«154356_j48120813584763_1_alg».proof.Proof.RowLaws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.UpdRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowLaws

-- The TensorCore's buffer contents when the region is entered: a parameter, as in the frame.
variable (V : (c : Dev nD) → (b : Ref sig .tc) → Buf (Elt Ideal) ((c : Thread nD τ).loc b))

/-! ## The two matrix products of the body, entry by entry -/

/-- At output index `i` and contraction index `q` the left operand is read at `(i 0, q)` and the right at `(q, i 1)`: the four
    coordinates, one lemma each. -/
theorem lhs_ax0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_ax1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_ax0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_ax1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000 × 256 block times a 256 × 256 matrix, started from zero: entry `(p, q)` is the sum over `k` of row `p` of
    the block against column `q` of the matrix. -/
theorem matmul_at (a : FVec Ideal S2000x256 .bf16) (w : FVec Ideal S256x256 .bf16) (p : Fin 2000) (q : Fin 256) :
    matmul dot_S2000x256_S256x256_S2000x256_1_0_0_1_n_n none a w (constant (F := Ideal) S2000x256 .f32 0x00000000#32) (ix2 p q)
      = ∑ k : Fin 256, a (ix2 p k) * w (ix2 k q) := by
  show FloatOps.matmul dot_S2000x256_S256x256_S2000x256_1_0_0_1_n_n none a w (constant (F := Ideal) S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_ax0 _ _
    | ⟨1, _⟩ => exact (lhs_ax1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_ax0 _ _).trans hk
    | ⟨1, _⟩ => exact rhs_ax1 _ _)
  rw [el, er]

/-! ## Columns and rows of a block -/

/-- A length-`a` vector cast to an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `a × 1` column broadcast to `a × b` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a 2000 × 256 block along its rows: entry `p` is the sum of the 256 entries of row `p`. -/
theorem rowSum_at (src : FVec Ideal S2000x256 .f32) (h : S2000x256.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 256, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The reciprocal square root of a vector, entry by entry. -/
theorem rsqrt_at {s : Shape} {φ : FTy} (v : FVec Ideal s φ) (i : s.Idx) : rsqrt v i = Ideal.rsqrt (v i) := rfl

/-! ## The body's result, entry by entry -/

/-- The last step adds the shift row. -/
theorem shift_at (v : FVec Ideal S2000x256 .f32) (x6 : Vec Ideal S1x256 .f32) (p : Fin 2000) (q : Fin 256) :
    k1_pay1 (F := Ideal) v x6 (ix2 p q) = v (ix2 p q) + x6 (ix2 0 q) := by
  unfold k1_pay1
  simp only [addf_apply, shapeCast_self, broadcastTo_1b_ab_apply]

/-- Entry `(p, q)` of the body's result is entry `q` of the normalised affine layer of row `p` of the two row blocks. -/
theorem pay_at (x0 x1 : Vec Ideal S2000x256 .bf16) (x2 x3 : Vec Ideal S256x256 .bf16) (x4 x5 x6 : Vec Ideal S1x256 .f32)
    (p : Fin 2000) (q : Fin 256) :
    k1_pay1 (F := Ideal) (k1_pay2 x0 x1 x2 x3 x4 x5) x6 (ix2 p q)
      = rowNorm (affRelu (fun k => x0 (ix2 p k)) (fun k => x1 (ix2 p k)) (fun k q => x2 (ix2 k q)) (fun k q => x3 (ix2 k q))
          (fun q => x4 (ix2 0 q))) (fun q => x5 (ix2 0 q)) (fun q => x6 (ix2 0 q)) q := by
  rw [shift_at]
  unfold k1_pay2 rowNorm affRelu
  simp only [mulf_apply, addf_apply, subf_apply, divf_apply, maximumf_apply, broadcast_apply, shapeCast_self,
    broadcastTo_1b_ab_apply, broadcastTo_a1_ab_apply, shapeCast_a_a1_apply, rsqrt_at, matmul_at]
  rw [rowSum_at]
  simp only [mulf_apply, addf_apply, subf_apply, divf_apply, maximumf_apply, broadcast_apply, shapeCast_self,
    broadcastTo_1b_ab_apply, broadcastTo_a1_ab_apply, shapeCast_a_a1_apply, rsqrt_at, matmul_at]
  rw [rowSum_at]
  simp only [mulf_apply, addf_apply, subf_apply, divf_apply, maximumf_apply, broadcast_apply, shapeCast_self,
    broadcastTo_1b_ab_apply, broadcastTo_a1_ab_apply, shapeCast_a_a1_apply, rsqrt_at, matmul_at]
  rw [rowSum_at]
  simp only [mulf_apply, addf_apply, subf_apply, divf_apply, maximumf_apply, broadcast_apply, shapeCast_self,
    broadcastTo_1b_ab_apply, broadcastTo_a1_ab_apply, shapeCast_a_a1_apply, rsqrt_at, matmul_at]
  rfl

/-- The body's result at any index of the 2000 × 256 block, by its two coordinates. -/
theorem pay_at_idx (x0 x1 : Vec Ideal S2000x256 .bf16) (x2 x3 : Vec Ideal S256x256 .bf16) (x4 x5 x6 : Vec Ideal S1x256 .f32)
    (y : S2000x256.Idx) :
    k1_pay1 (F := Ideal) (k1_pay2 x0 x1 x2 x3 x4 x5) x6 y
      = rowNorm (affRelu (fun k => x0 (ix2 (y 0) k)) (fun k => x1 (ix2 (y 0) k)) (fun k q => x2 (ix2 k q)) (fun k q => x3 (ix2 k q))
          (fun q => x4 (ix2 0 q))) (fun q => x5 (ix2 0 q)) (fun q => x6 (ix2 0 q)) (y 1) := by
  obtain ⟨p, q, rfl⟩ : ∃ (p : Fin 2000) (q : Fin 256), y = ix2 p q := ⟨y 0, y 1, eq_ix2 y⟩
  exact pay_at x0 x1 x2 x3 x4 x5 x6 p q

/-- The normalised affine layer of a row depends only on the row's entries, the matrices' entries and the three rows. -/
theorem rowNorm_affRelu_congr {a a' b b' : Fin 256 → EReal} {wa wa' wb wb' : Fin 256 → Fin 256 → EReal}
    {bias bias' γ γ' β β' : Fin 256 → EReal} {q q' : Fin 256}
    (ha : ∀ k, a k = a' k) (hb : ∀ k, b k = b' k) (hwa : ∀ k r, wa k r = wa' k r) (hwb : ∀ k r, wb k r = wb' k r)
    (hbias : ∀ r, bias r = bias' r) (hγ : ∀ r, γ r = γ' r) (hβ : ∀ r, β r = β' r) (hq : q = q') :
    rowNorm (affRelu a b wa wb bias) γ β q = rowNorm (affRelu a' b' wa' wb' bias') γ' β' q' := by
  obtain rfl : a = a' := funext ha
  obtain rfl : b = b' := funext hb
  obtain rfl : wa = wa' := funext fun k => funext (hwa k)
  obtain rfl : wb = wb' := funext fun k => funext (hwb k)
  obtain rfl : bias = bias' := funext hbias
  obtain rfl : γ = γ' := funext hγ
  obtain rfl : β = β' := funext hβ
  subst hq
  rfl

/-! ## Where each block sits in its array -/

theorem hz : (![0, 0] : Fin 2 → Nat) = fun _ => 0 := funext fun a => by fin_cases a <;> rfl

/-- The printed index maps over the 5 grid points: the two row-blocked inputs and the output are at row block `t`,
    every other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block, read off its array -/

/-- Row `r` of the node-feature block at point `t` is row `t · 2000 + r` of the node-feature array. -/
theorem blk0_row (c : Dev nD) (t : Fin cfg1.N) (r : Fin 2000) (R : Fin 10000) (hR : R.val = t.val * 2000 + r.val) (k : Fin 256) :
    (iblk1 (F := Ideal) V c 0 t : Vec Ideal S2000x256 .bf16) (ix2 r k) = (V c main_v4 : S10000x256.Idx → EReal) (ix2 R k) := by
  have e0 : win1_0.index t (0 : Fin 2) = t.val := by have h := idx_facts t; tauto
  have e1 : win1_0.index t (1 : Fin 2) = 0 := by have h := idx_facts t; tauto
  show (V c main_v4 : S10000x256.Idx → EReal) (((cfg1.win 0).blk t).view.emb (ix2 r k)) = _
  refine congrArg (V c main_v4 : S10000x256.Idx → EReal) ?_
  funext a
  apply Fin.ext
  match a with
  | ⟨0, _⟩ => show win1_0.index t (0 : Fin 2) * 2000 + 1 * r.val = R.val; rw [e0, hR]; omega
  | ⟨1, _⟩ => show win1_0.index t (1 : Fin 2) * 256 + 1 * k.val = k.val; rw [e1]; omega

/-- Row `r` of the aggregate block at point `t` is row `t · 2000 + r` of the aggregate array. -/
theorem blk1_row (c : Dev nD) (t : Fin cfg1.N) (r : Fin 2000) (R : Fin 10000) (hR : R.val = t.val * 2000 + r.val) (k : Fin 256) :
    (iblk1 (F := Ideal) V c 1 t : Vec Ideal S2000x256 .bf16) (ix2 r k) = (V c main_v28 : S10000x256.Idx → EReal) (ix2 R k) := by
  have e0 : win1_1.index t (0 : Fin 2) = t.val := by have h := idx_facts t; tauto
  have e1 : win1_1.index t (1 : Fin 2) = 0 := by have h := idx_facts t; tauto
  show (V c main_v28 : S10000x256.Idx → EReal) (((cfg1.win 1).blk t).view.emb (ix2 r k)) = _
  refine congrArg (V c main_v28 : S10000x256.Idx → EReal) ?_
  funext a
  apply Fin.ext
  match a with
  | ⟨0, _⟩ => show win1_1.index t (0 : Fin 2) * 2000 + 1 * r.val = R.val; rw [e0, hR]; omega
  | ⟨1, _⟩ => show win1_1.index t (1 : Fin 2) * 256 + 1 * k.val = k.val; rw [e1]; omega

/-- The first weight matrix is one block, the same at every point. -/
theorem blk2_whole (c : Dev nD) (t : Fin cfg1.N) (y : S256x256.Idx) :
    (iblk1 (F := Ideal) V c 2 t : Vec Ideal S256x256 .bf16) y = (V c main_v30 : S256x256.Idx → EReal) y := by
  have e0 : win1_2.index t (0 : Fin 2) = 0 := by have h := idx_facts t; tauto
  have e1 : win1_2.index t (1 : Fin 2) = 0 := by have h := idx_facts t; tauto
  show (V c main_v30 : S256x256.Idx → EReal) (((cfg1.win 2).blk t).view.emb y) = _
  refine congrArg (V c main_v30 : S256x256.Idx → EReal) ?_
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The second weight matrix is one block, the same at every point. -/
theorem blk3_whole (c : Dev nD) (t : Fin cfg1.N) (y : S256x256.Idx) :
    (iblk1 (F := Ideal) V c 3 t : Vec Ideal S256x256 .bf16) y = (V c main_v32 : S256x256.Idx → EReal) y := by
  have e0 : win1_3.index t (0 : Fin 2) = 0 := by have h := idx_facts t; tauto
  have e1 : win1_3.index t (1 : Fin 2) = 0 := by have h := idx_facts t; tauto
  show (V c main_v32 : S256x256.Idx → EReal) (((cfg1.win 3).blk t).view.emb y) = _
  refine congrArg (V c main_v32 : S256x256.Idx → EReal) ?_
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The bias row is one block, the same at every point. -/
theorem blk4_whole (c : Dev nD) (t : Fin cfg1.N) (y : S1x256.Idx) :
    (iblk1 (F := Ideal) V c 4 t : Vec Ideal S1x256 .f32) y = (V c main_v33 : S1x256.Idx → EReal) y := by
  have e0 : win1_4.index t (0 : Fin 2) = 0 := by have h := idx_facts t; tauto
  have e1 : win1_4.index t (1 : Fin 2) = 0 := by have h := idx_facts t; tauto
  show (V c main_v33 : S1x256.Idx → EReal) (((cfg1.win 4).blk t).view.emb y) = _
  refine congrArg (V c main_v33 : S1x256.Idx → EReal) ?_
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The scale row is one block, the same at every point. -/
theorem blk5_whole (c : Dev nD) (t : Fin cfg1.N) (y : S1x256.Idx) :
    (iblk1 (F := Ideal) V c 5 t : Vec Ideal S1x256 .f32) y = (V c main_v34 : S1x256.Idx → EReal) y := by
  have e0 : win1_5.index t (0 : Fin 2) = 0 := by have h := idx_facts t; tauto
  have e1 : win1_5.index t (1 : Fin 2) = 0 := by have h := idx_facts t; tauto
  show (V c main_v34 : S1x256.Idx → EReal) (((cfg1.win 5).blk t).view.emb y) = _
  refine congrArg (V c main_v34 : S1x256.Idx → EReal) ?_
  funext a
  apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-- The shift row is one block, the same at every point. -/
theorem blk6_whole (c : Dev nD) (t : Fin cfg1.N) (y : S1x256.Idx) :
    (iblk1 (F := Ideal) V c 6 t : Vec Ideal S1x256 .f32) y = (V c main_v35 : S1x256.Idx → EReal) y := by
  have e0 : win1_6.index t (0 : Fin 2) = 0 := by have h := idx_facts t; tauto
  have e1 : win1_6.index t (1 : Fin 2) = 0 := by have h := idx_facts t; tauto
  show (V c main_v35 : S1x256.Idx → EReal) (((cfg1.win 6).blk t).view.emb y) = _
  refine congrArg (V c main_v35 : S1x256.Idx → EReal) ?_
  funext a
  apply Fin.ext
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-! ## What a grid point writes back -/

/-- Point `t` writes back rows `t · 2000 … t · 2000 + 1999` of the row-wise normalised affine layer of the seven arrays. -/
theorem flushed_eq (c : Dev nD) (t : Fin cfg1.N) :
    (dat1 (F := Ideal) V c).flushed 7 t = ((cfg1.win 7).blk t).view.read (Elt Ideal)
      (updArr (V c main_v4) (V c main_v28) (V c main_v30) (V c main_v32) (V c main_v33) (V c main_v34) (V c main_v35)) := by
  show (cfg1.win 7).cut (grid1.coords t) ((dat1 V c).after 7 t) = _
  rw [after1_7]
  unfold out1_7
  rw [View.canon_unit_zero hz]
  simp only [View.ld_unit_zero (S := S2000x256) hz, View.ld_unit_zero (S := S256x256) hz, View.ld_unit_zero (S := S1x256) hz]
  have e70 : win1_7.index t (0 : Fin 2) = t.val := by have h := idx_facts t; tauto
  have e71 : win1_7.index t (1 : Fin 2) = 0 := by have h := idx_facts t; tauto
  funext j
  have hj0 : (j 0).val < 2000 := (j 0).isLt
  have hj1 : (j 1).val < 256 := (j 1).isLt
  refine (pay_at_idx (iblk1 V c 0 t) (iblk1 V c 1 t) (iblk1 V c 2 t) (iblk1 V c 3 t) (iblk1 V c 4 t) (iblk1 V c 5 t) (iblk1 V c 6 t)
    ((cfg1.win 7).xinj (grid1.coords t) j)).trans ?_
  show _ = updArr (V c main_v4) (V c main_v28) (V c main_v30) (V c main_v32) (V c main_v33) (V c main_v34) (V c main_v35)
    (((cfg1.win 7).blk t).view.emb j)
  exact rowNorm_affRelu_congr
    (fun k => blk0_row V c t _ _ (by show win1_7.index t (0 : Fin 2) * 2000 + 1 * (j 0).val = t.val * 2000 + (j 0).val; rw [e70]; omega) k)
    (fun k => blk1_row V c t _ _ (by show win1_7.index t (0 : Fin 2) * 2000 + 1 * (j 0).val = t.val * 2000 + (j 0).val; rw [e70]; omega) k)
    (fun k r => blk2_whole V c t (ix2 k r))
    (fun k r => blk3_whole V c t (ix2 k r))
    (fun r => blk4_whole V c t (ix2 0 r))
    (fun r => blk5_whole V c t (ix2 0 r))
    (fun r => blk6_whole V c t (ix2 0 r))
    (Fin.ext (by show (j 1).val = win1_7.index t (1 : Fin 2) * 256 + 1 * (j 1).val; rw [e71]; omega))

/-! ## The five blocks cover the array -/

/-- An index of the result array is in point `t`'s block iff each coordinate is in the block's range on its axis. -/
theorem mem_blk (t : Fin cfg1.N) (i : S10000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v36).slice (win1_7.rect t)).set ↔ _
  rw [View.set_slice_whole, Rect.mem_set_unit]
  exact Iff.rfl

/-- Row `r` of the 10000-row result lies in the block of point `r / 2000`, and every point writes its block back. -/
theorem covered (i : S10000x256.Idx) :
    ∃ t : Fin cfg1.N, (cfg1.win 7).flush t = true ∧ i ∈ ((cfg1.win 7).blk t).view.set := by
  have hi0 : (i 0).val < 10000 := idx2_lt0 i
  have hi1 : (i 1).val < 256 := idx2_lt1 i
  obtain ⟨t, ht⟩ : ∃ t : Fin cfg1.N, t.val = (i 0).val / 2000 :=
    ⟨⟨(i 0).val / 2000, by show (i 0).val / 2000 < grid1.N; rw [N_1]; omega⟩, rfl⟩
  have e70 : win1_7.index t (0 : Fin 2) = t.val := by have h := idx_facts t; tauto
  have e71 : win1_7.index t (1 : Fin 2) = 0 := by have h := idx_facts t; tauto
  refine ⟨t, flush1_7 t, ?_⟩
  rw [mem_blk]
  intro a
  match a with
  | ⟨0, _⟩ =>
    show win1_7.index t (0 : Fin 2) * 2000 ≤ (i 0).val ∧ (i 0).val < win1_7.index t (0 : Fin 2) * 2000 + 2000
    rw [e70, ht]; omega
  | ⟨1, _⟩ =>
    show win1_7.index t (1 : Fin 2) * 256 ≤ (i 1).val ∧ (i 1).val < win1_7.index t (1 : Fin 2) * 256 + 256
    rw [e71]; omega

/-! ## The result array -/

/-- The result array after the region: `updArr` of the region's seven input arrays as it finds them. -/
theorem upd_array (c : Dev nD) :
    (dat1 (F := Ideal) V c).arrAt 7 cfg1.N
      = updArr (V c main_v4) (V c main_v28) (V c main_v30) (V c main_v32) (V c main_v33) (V c main_v34) (V c main_v35) := by
  exact (dat1 (F := Ideal) V c).arrAt_eq_of_cover 7
    (updArr (V c main_v4) (V c main_v28) (V c main_v30) (V c main_v32) (V c main_v33) (V c main_v34) (V c main_v35))
    (fun t _ => flushed_eq V c t) covered

end Cert.KernelIdeal.UpdRegion

end
-- ==== Proof.HostStages.lean ====
/-
  The host operations around the two kernel regions, read as values: what each buffer a region reads holds when the
  region is entered, as the operations' own terms of the argument arrays (before the first region) and of the first
  region's exit contents (between the regions). Nothing is computed here: each buffer is the composition of the
  operations that wrote it.
-/
import proofs.«154356_j48120813584763_1_alg».proof.Proof.Gen.KernelIdeal.Frame
import Idealize.ShloMosaic.Lib.StableHlo.Run

set_option maxRecDepth 16384

noncomputable section

namespace Cert.KernelIdeal.HostStages

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Row `r` (0: sources, 1: targets) of the 2 × E edge list, as a vector of E node indices. -/
abbrev srcVec (e : (⟨S2x320000, .i32⟩ : BufTy).Contents (Elt F)) : (⟨S320000, .i32⟩ : BufTy).Contents (Elt F) :=
  shapeCast _ (extractStridedSlice S1x320000 ![0, 0] e slices_S2x320000_S1x320000_0_0) shapeCasts_S1x320000_S320000
abbrev tgtVec (e : (⟨S2x320000, .i32⟩ : BufTy).Contents (Elt F)) : (⟨S320000, .i32⟩ : BufTy).Contents (Elt F) :=
  shapeCast _ (extractStridedSlice S1x320000 ![1, 0] e slices_S2x320000_S1x320000_1_0) shapeCasts_S1x320000_S320000
/-- A vector of node indices with the negative ones wrapped by the node count, as a column of gather indices. -/
abbrev wrapCol (v : (⟨S320000, .i32⟩ : BufTy).Contents (Elt F)) : (⟨S320000x1, .i32⟩ : BufTy).Contents (Elt F) :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-! ## Before the first region -/

theorem entry_v4 (c : Dev nD) :
    V1 m ρ c main_v4 = truncf .bf16 (m ((c : Thread nD τ).loc main_arg0)) bitsLt_bf16_f32 := by
  show StableHlo.after hostOps0 (W0 m ρ c) (Proc.devRef .tc main_v4) = _
  after_results

theorem entry_v3 (c : Dev nD) :
    V1 m ρ c main_v3 = tgtVec (m ((c : Thread nD τ).loc main_arg1)) := by
  show StableHlo.after hostOps0 (W0 m ρ c) (Proc.devRef .tc main_v3) = _
  after_results; rfl

set_option maxHeartbeats 2000000 in
theorem entry_v11 (c : Dev nD) :
    V1 m ρ c main_v11 = Host.gather gather_S10000x256_S320000x1_S320000x256_1_0_n_n_0_1_1256
      (truncf .bf16 (m ((c : Thread nD τ).loc main_arg0)) bitsLt_bf16_f32) (wrapCol (srcVec (m ((c : Thread nD τ).loc main_arg1)))) := by
  show StableHlo.after hostOps0 (W0 m ρ c) (Proc.devRef .tc main_v11) = _
  after_results; rfl

set_option maxHeartbeats 2000000 in
theorem entry_v18 (c : Dev nD) :
    V1 m ρ c main_v18 = Host.gather gather_S10000x256_S320000x1_S320000x256_1_0_n_n_0_1_1256
      (truncf .bf16 (m ((c : Thread nD τ).loc main_arg0)) bitsLt_bf16_f32) (wrapCol (tgtVec (m ((c : Thread nD τ).loc main_arg1)))) := by
  show StableHlo.after hostOps0 (W0 m ρ c) (Proc.devRef .tc main_v18) = _
  after_results; rfl

theorem entry_v20 (c : Dev nD) :
    V1 m ρ c main_v20 = truncf .bf16 (extractStridedSlice S256x256 ![0, 0] (m ((c : Thread nD τ).loc main_arg2)) slices_S512x256_S256x256_0_0) bitsLt_bf16_f32 := by
  show StableHlo.after hostOps0 (W0 m ρ c) (Proc.devRef .tc main_v20) = _
  after_results

theorem entry_v22 (c : Dev nD) :
    V1 m ρ c main_v22 = truncf .bf16 (extractStridedSlice S256x256 ![256, 0] (m ((c : Thread nD τ).loc main_arg2)) slices_S512x256_S256x256_256_0) bitsLt_bf16_f32 := by
  show StableHlo.after hostOps0 (W0 m ρ c) (Proc.devRef .tc main_v22) = _
  after_results

theorem entry_v23 (c : Dev nD) :
    V1 m ρ c main_v23 = shapeCast _ (m ((c : Thread nD τ).loc main_arg3)) shapeCasts_S256_S1x256 := by
  show StableHlo.after hostOps0 (W0 m ρ c) (Proc.devRef .tc main_v23) = _
  after_results; rfl

/-! ## Between the regions -/

theorem mid_v4 (c : Dev nD) : V3 m ρ c main_v4 = V2 m ρ c main_v4 := by
  show StableHlo.after hostOps1 (W2 m ρ c) (Proc.devRef .tc main_v4) = _
  after_results

theorem mid_v28 (c : Dev nD) :
    V3 m ρ c main_v28 = truncf .bf16 (Host.scatterAdd scatter_S10000x256_S320000x1_S320000x256_1_0_0_1
      (broadcastInDim S10000x256 ![] bcast_S_S10000x256 (constant S_ .f32 0x00000000#32))
      (broadcastInDim S320000x1 ![0] bcast_S320000_S320000x1_0 (V2 m ρ c main_v3)) (V2 m ρ c main_v24)) bitsLt_bf16_f32 := by
  show StableHlo.after hostOps1 (W2 m ρ c) (Proc.devRef .tc main_v28) = _
  after_results

theorem mid_v30 (c : Dev nD) :
    V3 m ρ c main_v30 = truncf .bf16 (extractStridedSlice S256x256 ![0, 0] (V2 m ρ c main_arg4) slices_S512x256_S256x256_0_0) bitsLt_bf16_f32 := by
  show StableHlo.after hostOps1 (W2 m ρ c) (Proc.devRef .tc main_v30) = _
  after_results

theorem mid_v32 (c : Dev nD) :
    V3 m ρ c main_v32 = truncf .bf16 (extractStridedSlice S256x256 ![256, 0] (V2 m ρ c main_arg4) slices_S512x256_S256x256_256_0) bitsLt_bf16_f32 := by
  show StableHlo.after hostOps1 (W2 m ρ c) (Proc.devRef .tc main_v32) = _
  after_results

theorem mid_v33 (c : Dev nD) : V3 m ρ c main_v33 = shapeCast _ (V2 m ρ c main_arg5) shapeCasts_S256_S1x256 := by
  show StableHlo.after hostOps1 (W2 m ρ c) (Proc.devRef .tc main_v33) = _
  after_results; rfl
theorem mid_v34 (c : Dev nD) : V3 m ρ c main_v34 = shapeCast _ (V2 m ρ c main_arg6) shapeCasts_S256_S1x256 := by
  show StableHlo.after hostOps1 (W2 m ρ c) (Proc.devRef .tc main_v34) = _
  after_results; rfl
theorem mid_v35 (c : Dev nD) : V3 m ρ c main_v35 = shapeCast _ (V2 m ρ c main_arg7) shapeCasts_S256_S1x256 := by
  show StableHlo.after hostOps1 (W2 m ρ c) (Proc.devRef .tc main_v35) = _
  after_results; rfl

/-! ## What the first region leaves untouched, and the arguments -/

theorem exit_v3 (c : Dev nD) : V2 m ρ c main_v3 = V1 m ρ c main_v3 := W2_of_ne m ρ c main_v3 (by decide)
theorem exit_v4 (c : Dev nD) : V2 m ρ c main_v4 = V1 m ρ c main_v4 := W2_of_ne m ρ c main_v4 (by decide)
theorem exit_v24 (c : Dev nD) : V2 m ρ c main_v24 = (dat0 (V1 m ρ) c).arrAt 5 cfg0.N := W2_arr m ρ c 5

theorem exit_arg4 (c : Dev nD) : V2 m ρ c main_arg4 = m ((c : Thread nD τ).loc main_arg4) := by
  refine (W2_of_ne m ρ c main_arg4 (by decide)).trans ?_
  show StableHlo.after hostOps0 (W0 m ρ c) (Proc.devRef .tc main_arg4) = _
  after_results
theorem exit_arg5 (c : Dev nD) : V2 m ρ c main_arg5 = m ((c : Thread nD τ).loc main_arg5) := by
  refine (W2_of_ne m ρ c main_arg5 (by decide)).trans ?_
  show StableHlo.after hostOps0 (W0 m ρ c) (Proc.devRef .tc main_arg5) = _
  after_results
theorem exit_arg6 (c : Dev nD) : V2 m ρ c main_arg6 = m ((c : Thread nD τ).loc main_arg6) := by
  refine (W2_of_ne m ρ c main_arg6 (by decide)).trans ?_
  show StableHlo.after hostOps0 (W0 m ρ c) (Proc.devRef .tc main_arg6) = _
  after_results
theorem exit_arg7 (c : Dev nD) : V2 m ρ c main_arg7 = m ((c : Thread nD τ).loc main_arg7) := by
  refine (W2_of_ne m ρ c main_arg7 (by decide)).trans ?_
  show StableHlo.after hostOps0 (W0 m ρ c) (Proc.devRef .tc main_arg7) = _
  after_results

end Cert.KernelIdeal.HostStages

end
-- ==== Proof.KernelValue.lean ====
/-
  The kernel program read as a value. Its result array is what the second region leaves (`updArr` of that region's
  entry contents), whose entry contents are the host operations' terms of the first region's exit contents and of the
  arguments, the first region's output being `msgArr` of ITS entry contents, which are host terms of the arguments:
  composing the four gives the result as ONE function `kernelOut` of the eight argument arrays.
-/
import proofs.«154356_j48120813584763_1_alg».proof.Proof.KernelIdealRun
import proofs.«154356_j48120813584763_1_alg».proof.Proof.MsgRegion
import proofs.«154356_j48120813584763_1_alg».proof.Proof.UpdRegion
import proofs.«154356_j48120813584763_1_alg».proof.Proof.HostStages

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostStages Cert.RowLaws

/-- The per-edge messages as the kernel program computes them from the node features, the edge list, the message
    weights and the message bias. -/
def kernelMsg (x : (⟨S10000x256, .f32⟩ : BufTy).Contents (Elt Ideal)) (e : (⟨S2x320000, .i32⟩ : BufTy).Contents (Elt Ideal))
    (wm : (⟨S512x256, .f32⟩ : BufTy).Contents (Elt Ideal)) (bm : (⟨S256, .f32⟩ : BufTy).Contents (Elt Ideal)) : SE.Idx → EReal :=
  msgArr
    (Host.gather gather_S10000x256_S320000x1_S320000x256_1_0_n_n_0_1_1256 (truncf .bf16 x bitsLt_bf16_f32 : FVec Ideal S10000x256 .bf16) (wrapCol (F := Ideal) (srcVec (F := Ideal) e)))
    (Host.gather gather_S10000x256_S320000x1_S320000x256_1_0_n_n_0_1_1256 (truncf .bf16 x bitsLt_bf16_f32 : FVec Ideal S10000x256 .bf16) (wrapCol (F := Ideal) (tgtVec (F := Ideal) e)))
    (truncf .bf16 (extractStridedSlice S256x256 ![0, 0] wm slices_S512x256_S256x256_0_0) bitsLt_bf16_f32 : FVec Ideal S256x256 .bf16)
    (truncf .bf16 (extractStridedSlice S256x256 ![256, 0] wm slices_S512x256_S256x256_256_0) bitsLt_bf16_f32 : FVec Ideal S256x256 .bf16)
    (shapeCast S1x256 bm shapeCasts_S256_S1x256)

/-- The result array as the kernel program computes it from its eight arguments. -/
def kernelOut (x : (⟨S10000x256, .f32⟩ : BufTy).Contents (Elt Ideal)) (e : (⟨S2x320000, .i32⟩ : BufTy).Contents (Elt Ideal))
    (wm : (⟨S512x256, .f32⟩ : BufTy).Contents (Elt Ideal)) (bm : (⟨S256, .f32⟩ : BufTy).Contents (Elt Ideal))
    (wu : (⟨S512x256, .f32⟩ : BufTy).Contents (Elt Ideal)) (bu γ β : (⟨S256, .f32⟩ : BufTy).Contents (Elt Ideal)) : SN.Idx → EReal :=
  updArr (truncf .bf16 x bitsLt_bf16_f32 : FVec Ideal S10000x256 .bf16)
    (truncf .bf16 (Host.scatterAdd (F := Ideal) (φ := .f32) scatter_S10000x256_S320000x1_S320000x256_1_0_0_1
      (broadcastInDim S10000x256 ![] bcast_S_S10000x256 (constant S_ .f32 0x00000000#32))
      (broadcastInDim S320000x1 ![0] bcast_S320000_S320000x1_0 (tgtVec (F := Ideal) e)) (kernelMsg x e wm bm)) bitsLt_bf16_f32 : FVec Ideal S10000x256 .bf16)
    (truncf .bf16 (extractStridedSlice S256x256 ![0, 0] wu slices_S512x256_S256x256_0_0) bitsLt_bf16_f32 : FVec Ideal S256x256 .bf16)
    (truncf .bf16 (extractStridedSlice S256x256 ![256, 0] wu slices_S512x256_S256x256_256_0) bitsLt_bf16_f32 : FVec Ideal S256x256 .bf16)
    (shapeCast S1x256 bu shapeCasts_S256_S1x256) (shapeCast S1x256 γ shapeCasts_S256_S1x256) (shapeCast S1x256 β shapeCasts_S256_S1x256)

variable (m : (ℓ : Loc nD τ sig) → Buf (Elt Ideal) ℓ) (ρ : Dev nD → PrngReg)

/-- The first region's output array, from the arguments. -/
theorem msg_value (c : Dev nD) :
    V2 m ρ c main_v24 = kernelMsg (m ((c : Thread nD τ).loc main_arg0)) (m ((c : Thread nD τ).loc main_arg1))
      (m ((c : Thread nD τ).loc main_arg2)) (m ((c : Thread nD τ).loc main_arg3)) := by
  rw [exit_v24, MsgRegion.msg_array (V1 m ρ) c, entry_v11, entry_v18, entry_v20, entry_v22, entry_v23]
  rfl

/-- The result array at the last boundary, from the arguments. -/
theorem out_value (c : Dev nD) :
    W4 m ρ c (Proc.devRef .tc main_v36) = kernelOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (W4_arr m ρ c 7).trans ?_
  rw [UpdRegion.upd_array (V3 m ρ) c, mid_v4, exit_v4, entry_v4, mid_v28, exit_v3, entry_v3, msg_value,
    mid_v30, mid_v32, mid_v33, mid_v34, mid_v35, exit_arg4, exit_arg5, exit_arg6, exit_arg7]
  rfl

/-- The kernel program's run with its result named: every weakly fair execution terminates, nothing faulting, the result
    array at `kernelOut` of the arguments, the arguments unchanged. -/
theorem run : θ_run defs (onTc (τ := τ) (main (F := Ideal))) ⟨m, fun _ => 0, ρ⟩ (fun r => ∀ c : Dev nD,
      r.2.mem ((c.tc : Thread nD τ).loc main_v36) = kernelOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_value m ρ c), (h c).2⟩) (run_named m ρ)

end Cert.KernelIdeal.KernelValue

end
-- ==== Proof.RefValue.lean ====
/-
  The reference program read as a value: its result array is, row by row, the normalised affine layer
  (`RowLaws.updArr`) of the node features and of the scatter-added messages, the messages themselves being the
  clamped affine layer (`RowLaws.msgArr`) of the two gathered arrays — the reference's ONE product of the concatenated
  512-entry row with the whole 512 × 256 matrix split at the middle row (`RowLaws.affRelu_of_cat`).
-/
import proofs.«154356_j48120813584763_1_alg».proof.Proof.Gen.ReferenceIdeal.Run
import proofs.«154356_j48120813584763_1_alg».proof.Proof.Gen.ReferenceIdeal.Read
import proofs.«154356_j48120813584763_1_alg».proof.Proof.RowLaws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.RowLaws

/-! ## The concatenated rows, entry by entry

Entry `k < 256` of row `e` of the concatenation is entry `k` of the first piece's row `e`; entry `256 + k` is entry
`k` of the second piece's row `e`. -/

/-- The edge rows: the first half of a concatenated row is the row of the first gathered array. -/
theorem cat_edge_left (x0 : (⟨S10000x256, .f32⟩ : BufTy).Contents (Elt Ideal)) (x1 : (⟨S2x320000, .i32⟩ : BufTy).Contents (Elt Ideal))
    (e : Fin 320000) (k : Fin 256) :
    val_main_v18 (F := Ideal) x0 x1 (ix2 e (⟨k.val, by omega⟩ : Fin 512)) = val_main_v10 (F := Ideal) x0 x1 (ix2 e k) := by
  unfold val_main_v18
  generalize val_main_v10 (F := Ideal) x0 x1 = y1
  generalize val_main_v17 (F := Ideal) x0 x1 = y2
  exact concatenate_pair_apply_left 1 y1 y2 concatenates_S320000x256_S320000x256_S320000x512_d1
    (ix2 e (⟨k.val, by omega⟩ : Fin 512)) rfl (ix2 e k) (fun b => by match b with | ⟨0, _⟩ => rfl | ⟨1, _⟩ => rfl)

/-- The edge rows: the second half of a concatenated row is the row of the second gathered array. -/
theorem cat_edge_right (x0 : (⟨S10000x256, .f32⟩ : BufTy).Contents (Elt Ideal)) (x1 : (⟨S2x320000, .i32⟩ : BufTy).Contents (Elt Ideal))
    (e : Fin 320000) (k : Fin 256) :
    val_main_v18 (F := Ideal) x0 x1 (ix2 e (⟨256 + k.val, by omega⟩ : Fin 512)) = val_main_v17 (F := Ideal) x0 x1 (ix2 e k) := by
  unfold val_main_v18
  generalize val_main_v10 (F := Ideal) x0 x1 = y1
  generalize val_main_v17 (F := Ideal) x0 x1 = y2
  exact concatenate_pair_apply_right 1 y1 y2 concatenates_S320000x256_S320000x256_S320000x512_d1
    (ix2 e (⟨256 + k.val, by omega⟩ : Fin 512)) rfl rfl (ix2 e k)
    (fun b hb => by match b, hb with | ⟨0, _⟩, _ => rfl | ⟨1, _⟩, hb => exact absurd rfl hb)
    (by show k.val + 256 = 256 + k.val; omega)

/-- The node rows: the first half of a concatenated row is the row of the node features. -/
theorem cat_node_left (x0 : (⟨S10000x256, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal))
    (n : Fin 10000) (k : Fin 256) :
    val_main_v27 (F := Ideal) x0 x1 x2 x3 (ix2 n (⟨k.val, by omega⟩ : Fin 512)) = x0 (ix2 n k) := by
  unfold val_main_v27
  generalize val_main_v26 (F := Ideal) x0 x1 x2 x3 = y2
  exact concatenate_pair_apply_left 1 x0 y2 concatenates_S10000x256_S10000x256_S10000x512_d1
    (ix2 n (⟨k.val, by omega⟩ : Fin 512)) rfl (ix2 n k) (fun b => by match b with | ⟨0, _⟩ => rfl | ⟨1, _⟩ => rfl)

/-- The node rows: the second half of a concatenated row is the row of the aggregate. -/
theorem cat_node_right (x0 : (⟨S10000x256, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal))
    (n : Fin 10000) (k : Fin 256) :
    val_main_v27 (F := Ideal) x0 x1 x2 x3 (ix2 n (⟨256 + k.val, by omega⟩ : Fin 512)) = val_main_v26 (F := Ideal) x0 x1 x2 x3 (ix2 n k) := by
  unfold val_main_v27
  generalize val_main_v26 (F := Ideal) x0 x1 x2 x3 = y2
  exact concatenate_pair_apply_right 1 x0 y2 concatenates_S10000x256_S10000x256_S10000x512_d1
    (ix2 n (⟨256 + k.val, by omega⟩ : Fin 512)) rfl rfl (ix2 n k)
    (fun b hb => by match b, hb with | ⟨0, _⟩, _ => rfl | ⟨1, _⟩, hb => exact absurd rfl hb)
    (by show k.val + 256 = 256 + k.val; omega)

/-! ## The two clamped affine layers -/

/-- The message array: entry `(e, q)` is the clamped 512-term product of the concatenated row `e` with column `q` of
    the whole matrix plus the bias, which splits at the middle row into the two 256-term products. -/
theorem msg_eq (x0 : (⟨S10000x256, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal)) :
    val_main_v23 (F := Ideal) x0 x1 x2 x3
      = msgArr (val_main_v10 (F := Ideal) x0 x1) (val_main_v17 (F := Ideal) x0 x1) (topHalf x2) (botHalf x2) (asRow x3) := by
  funext i
  obtain ⟨e, q, rfl⟩ : ∃ (e : Fin 320000) (q : Fin 256), i = ix2 e q := ⟨i 0, i 1, eq_ix2 i⟩
  have el : ∀ k : Fin 512, lidx_main_v19 (ix2 e q) k = ix2 e k := fun k =>
    funext fun a => Fin.ext (by match a with | ⟨0, _⟩ => rfl | ⟨1, _⟩ => rfl)
  have er : ∀ k : Fin 512, ridx_main_v19 (ix2 e q) k = ix2 k q := fun k =>
    funext fun a => Fin.ext (by match a with | ⟨0, _⟩ => rfl | ⟨1, _⟩ => rfl)
  have eb : idx_main_v20 (idx_main_v21 (ix2 e q)) = ix1 q :=
    funext fun a => Fin.ext (by match a with | ⟨0, _⟩ => rfl)
  rw [val_main_v23_apply, val_main_v22_apply, val_main_v19_apply, val_main_call0_v0_apply, val_main_call0_cst_apply,
    val_main_v21_apply, val_main_v20_apply, eb]
  simp only [el, er, Ideal.maximumf_def, Ideal.addf_def, Ideal.ofBits_def]
  refine (affRelu_of_cat (fun k : Fin 512 => val_main_v18 (F := Ideal) x0 x1 (ix2 e k)) (fun (k : Fin 512) (q' : Fin 256) => x2 (ix2 k q'))
    (fun q' : Fin 256 => x3 (ix1 q')) q).trans ?_
  simp only [cat_edge_left, cat_edge_right]
  rfl

/-- The second layer before normalisation: entry `(n, q)` is the clamped affine layer of row `n` of the features and of
    the aggregate. -/
theorem upd_clamp (x0 : (⟨S10000x256, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal))
    (x4 : (⟨S512x256, .f32⟩ : BufTy).Contents (Elt Ideal)) (x5 : (⟨S256, .f32⟩ : BufTy).Contents (Elt Ideal))
    (n : Fin 10000) (q : Fin 256) :
    val_main_v32 (F := Ideal) x0 x1 x2 x3 x4 x5 (ix2 n q)
      = affRelu (fun k => x0 (ix2 n k)) (fun k => val_main_v26 (F := Ideal) x0 x1 x2 x3 (ix2 n k))
          (fun k q' => topHalf x4 (ix2 k q')) (fun k q' => botHalf x4 (ix2 k q')) (fun q' => asRow x5 (ix2 0 q')) q := by
  have el : ∀ k : Fin 512, lidx_main_v28 (ix2 n q) k = ix2 n k := fun k =>
    funext fun a => Fin.ext (by match a with | ⟨0, _⟩ => rfl | ⟨1, _⟩ => rfl)
  have er : ∀ k : Fin 512, ridx_main_v28 (ix2 n q) k = ix2 k q := fun k =>
    funext fun a => Fin.ext (by match a with | ⟨0, _⟩ => rfl | ⟨1, _⟩ => rfl)
  have eb : idx_main_v29 (idx_main_v30 (ix2 n q)) = ix1 q :=
    funext fun a => Fin.ext (by match a with | ⟨0, _⟩ => rfl)
  rw [val_main_v32_apply, val_main_v31_apply, val_main_v28_apply, val_main_call1_v0_apply, val_main_call1_cst_apply,
    val_main_v30_apply, val_main_v29_apply, eb]
  simp only [el, er, Ideal.maximumf_def, Ideal.addf_def, Ideal.ofBits_def]
  refine (affRelu_of_cat (fun k : Fin 512 => val_main_v27 (F := Ideal) x0 x1 x2 x3 (ix2 n k)) (fun (k : Fin 512) (q' : Fin 256) => x4 (ix2 k q'))
    (fun q' : Fin 256 => x5 (ix1 q')) q).trans ?_
  simp only [cat_node_left, cat_node_right]
  rfl

/-! ## The row normalisation -/

section Norm
variable (x0 : (⟨S10000x256, .f32⟩ : BufTy).Contents (Elt Ideal)) (x1 : (⟨S2x320000, .i32⟩ : BufTy).Contents (Elt Ideal))
  (x2 : (⟨S512x256, .f32⟩ : BufTy).Contents (Elt Ideal)) (x3 : (⟨S256, .f32⟩ : BufTy).Contents (Elt Ideal))
  (x4 : (⟨S512x256, .f32⟩ : BufTy).Contents (Elt Ideal)) (x5 x6 x7 : (⟨S256, .f32⟩ : BufTy).Contents (Elt Ideal))

/-- Row `n` of the clamped second layer, as a function of the column. -/
abbrev hrow (n : Fin 10000) : Fin 256 → EReal := fun k => val_main_v32 (F := Ideal) x0 x1 x2 x3 x4 x5 (ix2 n k)

/-- The row mean: the sum of the 256 entries (the sum's initial value is the zero word) over the row length. -/
theorem mean_at (n : Fin 10000) (z : Fin 1) :
    val_main_v36 (F := Ideal) x0 x1 x2 x3 x4 x5 (ix2 n z) = Ideal.div (∑ k : Fin 256, hrow x0 x1 x2 x3 x4 x5 n k) lenLit := by
  have e1 : ∀ k : Fin 256, idx_main_v33 (idx_main_v34 (ix2 n z)) k = ix2 n k := fun k =>
    funext fun a => Fin.ext (by match a with | ⟨0, _⟩ => rfl | ⟨1, _⟩ => rfl)
  rw [val_main_v36_apply, val_main_v34_apply, val_main_v33_apply, val_main_cst_3_apply, val_main_v35_apply, val_main_cst_4_apply]
  simp only [e1, Ideal.hostDivf_def, Ideal.ofBits_def, Ideal.ofBits_zero_f32, zero_add]

/-- The row variance: the mean of the squared deviations from the row mean. -/
theorem var_at (n : Fin 10000) (z : Fin 1) :
    val_main_v43 (F := Ideal) x0 x1 x2 x3 x4 x5 (ix2 n z)
      = Ideal.div (∑ k : Fin 256, (hrow x0 x1 x2 x3 x4 x5 n k - Ideal.div (∑ k' : Fin 256, hrow x0 x1 x2 x3 x4 x5 n k') lenLit)
          * (hrow x0 x1 x2 x3 x4 x5 n k - Ideal.div (∑ k' : Fin 256, hrow x0 x1 x2 x3 x4 x5 n k') lenLit)) lenLit := by
  have e1 : ∀ k : Fin 256, idx_main_v40 (idx_main_v41 (ix2 n z)) k = ix2 n k := fun k =>
    funext fun a => Fin.ext (by match a with | ⟨0, _⟩ => rfl | ⟨1, _⟩ => rfl)
  have e2 : ∀ k : Fin 256, idx_main_v37 (ix2 n k) = ix2 n (⟨0, Nat.one_pos⟩ : Fin 1) := fun k =>
    funext fun a => Fin.ext (by match a with | ⟨0, _⟩ => rfl | ⟨1, _⟩ => rfl)
  rw [val_main_v43_apply, val_main_v41_apply, val_main_v40_apply, val_main_cst_5_apply, val_main_v42_apply, val_main_cst_6_apply]
  simp only [e1, val_main_v39_apply, val_main_v38_apply, val_main_v37_apply, e2, mean_at, Ideal.hostDivf_def, Ideal.mulf_def,
    Ideal.subf_def, Ideal.ofBits_def, Ideal.ofBits_zero_f32, zero_add]

/-- The reference's result at `(n, q)` is the normalised row `n` of the clamped second layer at column `q`. -/
theorem out_at (n : Fin 10000) (q : Fin 256) :
    val_main_v56 (F := Ideal) x0 x1 x2 x3 x4 x5 x6 x7 (ix2 n q)
      = rowNorm (hrow x0 x1 x2 x3 x4 x5 n) (fun q' => x6 (ix1 q')) (fun q' => x7 (ix1 q')) q := by
  have e44 : idx_main_v44 (ix2 n q) = ix2 n (⟨0, Nat.one_pos⟩ : Fin 1) :=
    funext fun a => Fin.ext (by match a with | ⟨0, _⟩ => rfl | ⟨1, _⟩ => rfl)
  have e49 : idx_main_v49 (ix2 n q) = ix2 n (⟨0, Nat.one_pos⟩ : Fin 1) :=
    funext fun a => Fin.ext (by match a with | ⟨0, _⟩ => rfl | ⟨1, _⟩ => rfl)
  have e52 : idx_main_v51 (idx_main_v52 (ix2 n q)) = ix1 q :=
    funext fun a => Fin.ext (by match a with | ⟨0, _⟩ => rfl)
  have e55 : idx_main_v54 (idx_main_v55 (ix2 n q)) = ix1 q :=
    funext fun a => Fin.ext (by match a with | ⟨0, _⟩ => rfl)
  rw [val_main_v56_apply, val_main_v53_apply, val_main_v50_apply, val_main_v45_apply, val_main_v44_apply, e44, mean_at,
    val_main_v49_apply, e49, val_main_v48_apply, val_main_v47_apply, var_at, val_main_v46_apply, val_main_cst_7_apply,
    val_main_v52_apply, val_main_v51_apply, e52, val_main_v55_apply, val_main_v54_apply, e55]
  simp only [Ideal.addf_def, Ideal.mulf_def, Ideal.subf_def, Ideal.hostUnary_rsqrt_def, Ideal.ofBits_def]
  rfl

end Norm

/-- The reference's result array is `updArr` of the features and of the scatter-added array. -/
theorem out_eq (x0 : (⟨S10000x256, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal))
    (x4 : (⟨S512x256, .f32⟩ : BufTy).Contents (Elt Ideal)) (x5 x6 x7 : (⟨S256, .f32⟩ : BufTy).Contents (Elt Ideal)) :
    val_main_v56 (F := Ideal) x0 x1 x2 x3 x4 x5 x6 x7
      = updArr x0 (val_main_v26 (F := Ideal) x0 x1 x2 x3) (topHalf x4) (botHalf x4) (asRow x5) (asRow x6) (asRow x7) := by
  funext i
  obtain ⟨n, q, rfl⟩ : ∃ (n : Fin 10000) (q : Fin 256), i = ix2 n q := ⟨i 0, i 1, eq_ix2 i⟩
  rw [out_at]
  have hh : hrow x0 x1 x2 x3 x4 x5 n
      = affRelu (fun k => x0 (ix2 n k)) (fun k => val_main_v26 (F := Ideal) x0 x1 x2 x3 (ix2 n k))
          (fun k q' => topHalf x4 (ix2 k q')) (fun k q' => botHalf x4 (ix2 k q')) (fun q' => asRow x5 (ix2 0 q')) :=
    funext fun k => upd_clamp x0 x1 x2 x3 x4 x5 n k
  rw [hh]
  rfl

/-- The reference's result, as `updArr` over `msgArr`: the gathers and the scatter-add stay the reference's own stages. -/
theorem ref_value (m : (ℓ : Loc nD τ sig) → Buf (Elt Ideal) ℓ) (c : Dev nD) :
    Cert.ReferenceIdeal.Value.res_main_v56 (F := Ideal) m c
      = updArr (m ((c.tc : Thread nD τ).loc main_arg0))
          (Host.scatterAdd (F := Ideal) (φ := .f32) scatter_S10000x256_S320000x1_S320000x256_1_0_0_1 (val_main_v24 (F := Ideal))
            (val_main_v25 (F := Ideal) (m ((c.tc : Thread nD τ).loc main_arg1)))
            (msgArr (val_main_v10 (F := Ideal) (m ((c.tc : Thread nD τ).loc main_arg0)) (m ((c.tc : Thread nD τ).loc main_arg1)))
              (val_main_v17 (F := Ideal) (m ((c.tc : Thread nD τ).loc main_arg0)) (m ((c.tc : Thread nD τ).loc main_arg1)))
              (topHalf (m ((c.tc : Thread nD τ).loc main_arg2))) (botHalf (m ((c.tc : Thread nD τ).loc main_arg2)))
              (asRow (m ((c.tc : Thread nD τ).loc main_arg3)))))
          (topHalf (m ((c.tc : Thread nD τ).loc main_arg4))) (botHalf (m ((c.tc : Thread nD τ).loc main_arg4)))
          (asRow (m ((c.tc : Thread nD τ).loc main_arg5))) (asRow (m ((c.tc : Thread nD τ).loc main_arg6)))
          (asRow (m ((c.tc : Thread nD τ).loc main_arg7))) := by
  rw [val_main_v56_eq, out_eq]
  unfold val_main_v26
  rw [msg_eq]

end Cert.ReferenceIdeal.RefValue

end
-- ==== Proof.Bridge.lean ====
/-
  The two programs compute one function of the arguments. The kernel program's result (`KernelValue.kernelOut`) and
  the reference's (`RefValue.ref_value`'s right-hand side) are both `updArr` over a scatter-add of `msgArr`; what is
  left is that their operands agree:
    * a change of float format is the identity on the extended reals, so gathering from the converted features is
      gathering from the features, and the converted aggregate is the aggregate;
    * the kernel's two 256-row slices of a weight matrix are its top and bottom halves;
    * a length-256 vector reshaped to 1 × 256 is that vector as a row;
    * the index columns (sources and targets wrapped by the node count; the raw targets) and the zero array are the same
      operations in both programs.
-/
import proofs.«154356_j48120813584763_1_alg».proof.Proof.KernelValue
import proofs.«154356_j48120813584763_1_alg».proof.Proof.RefValue

set_option maxRecDepth 16384

noncomputable section

namespace Cert.Bridge

open Idealize.ShloMosaic Idealize.ShloMosaic.TcCoe Idealize.ShloMosaic.ValueIdx Idealize.SL.Sem
open Cert.RowLaws

variable (x : (⟨Cert.KernelIdeal.S10000x256, .f32⟩ : BufTy).Contents (Elt Ideal)) (e : (⟨Cert.KernelIdeal.S2x320000, .i32⟩ : BufTy).Contents (Elt Ideal))
  (w : (⟨Cert.KernelIdeal.S512x256, .f32⟩ : BufTy).Contents (Elt Ideal)) (b : (⟨Cert.KernelIdeal.S256, .f32⟩ : BufTy).Contents (Elt Ideal))

/-- Gathering rows of the converted features at the wrapped sources is the reference's first gather. -/
theorem gather_src :
    Host.gather Cert.KernelIdeal.gather_S10000x256_S320000x1_S320000x256_1_0_n_n_0_1_1256 (truncf .bf16 x Cert.KernelIdeal.Facts₀.bitsLt_bf16_f32 : FVec Ideal Cert.KernelIdeal.S10000x256 .bf16)
        (Cert.KernelIdeal.HostStages.wrapCol (F := Ideal) (Cert.KernelIdeal.HostStages.srcVec (F := Ideal) e))
      = Cert.ReferenceIdeal.Read.val_main_v10 (F := Ideal) x e := rfl

/-- At the wrapped targets, the second. -/
theorem gather_tgt :
    Host.gather Cert.KernelIdeal.gather_S10000x256_S320000x1_S320000x256_1_0_n_n_0_1_1256 (truncf .bf16 x Cert.KernelIdeal.Facts₀.bitsLt_bf16_f32 : FVec Ideal Cert.KernelIdeal.S10000x256 .bf16)
        (Cert.KernelIdeal.HostStages.wrapCol (F := Ideal) (Cert.KernelIdeal.HostStages.tgtVec (F := Ideal) e))
      = Cert.ReferenceIdeal.Read.val_main_v17 (F := Ideal) x e := rfl

/-- The converted features are the features. -/
theorem conv_eq : ((truncf .bf16 x Cert.KernelIdeal.Facts₀.bitsLt_bf16_f32 : FVec Ideal Cert.KernelIdeal.S10000x256 .bf16) : SN.Idx → EReal) = x := rfl

/-- The first 256 rows of a weight matrix, sliced and converted, are its top half. -/
theorem top_eq :
    ((truncf .bf16 (extractStridedSlice Cert.KernelIdeal.S256x256 ![0, 0] w Cert.KernelIdeal.Facts₀.slices_S512x256_S256x256_0_0)
      Cert.KernelIdeal.Facts₀.bitsLt_bf16_f32 : FVec Ideal Cert.KernelIdeal.S256x256 .bf16) : SW.Idx → EReal) = topHalf w := by
  funext i
  show extractStridedSlice Cert.KernelIdeal.S256x256 ![0, 0] w Cert.KernelIdeal.Facts₀.slices_S512x256_S256x256_0_0 i = _
  exact extractStridedSlice_apply ![0, 0] w _ i _ (fun a => match a with
    | ⟨0, _⟩ => by show (i 0).val = 0 + (i 0).val; omega
    | ⟨1, _⟩ => by show (i 1).val = 0 + (i 1).val; omega)

/-- Its last 256 rows, the bottom half. -/
theorem bot_eq :
    ((truncf .bf16 (extractStridedSlice Cert.KernelIdeal.S256x256 ![256, 0] w Cert.KernelIdeal.Facts₀.slices_S512x256_S256x256_256_0)
      Cert.KernelIdeal.Facts₀.bitsLt_bf16_f32 : FVec Ideal Cert.KernelIdeal.S256x256 .bf16) : SW.Idx → EReal) = botHalf w := by
  funext i
  show extractStridedSlice Cert.KernelIdeal.S256x256 ![256, 0] w Cert.KernelIdeal.Facts₀.slices_S512x256_S256x256_256_0 i = _
  exact extractStridedSlice_apply ![256, 0] w _ i _ (fun a => match a with
    | ⟨0, _⟩ => by show 256 + (i 0).val = 256 + (i 0).val; rfl
    | ⟨1, _⟩ => by show (i 1).val = 0 + (i 1).val; omega)

/-- A length-256 vector reshaped to one row is that vector as a row. -/
theorem row_eq :
    (shapeCast Cert.KernelIdeal.S1x256 b Cert.KernelIdeal.Facts₀.shapeCasts_S256_S1x256 : SR.Idx → EReal) = asRow b := by
  funext i
  exact shapeCast_apply b _ i (ix1 (i 1)) (by
    rewrite [Shape.rowMajor_val_one, Shape.rowMajor_val_two]
    have h0 : (i 0).val < 1 := idx2_lt0 i
    show (i 1).val = (i 0).val * 256 + (i 1).val
    omega)

/-- The kernel program's scatter-add (zeros, raw targets, messages), converted, is the reference's. -/
theorem scatter_eq (M : SE.Idx → EReal) :
    ((truncf .bf16 (Host.scatterAdd (F := Ideal) (φ := .f32) Cert.KernelIdeal.scatter_S10000x256_S320000x1_S320000x256_1_0_0_1
        (broadcastInDim Cert.KernelIdeal.S10000x256 ![] Cert.KernelIdeal.Facts₀.bcast_S_S10000x256 (constant Cert.KernelIdeal.S_ .f32 0x00000000#32))
        (broadcastInDim Cert.KernelIdeal.S320000x1 ![0] Cert.KernelIdeal.Facts₀.bcast_S320000_S320000x1_0 (Cert.KernelIdeal.HostStages.tgtVec (F := Ideal) e)) M)
      Cert.KernelIdeal.Facts₀.bitsLt_bf16_f32 : FVec Ideal Cert.KernelIdeal.S10000x256 .bf16) : SN.Idx → EReal)
      = Host.scatterAdd (F := Ideal) (φ := .f32) Cert.ReferenceIdeal.scatter_S10000x256_S320000x1_S320000x256_1_0_0_1
          (Cert.ReferenceIdeal.Read.val_main_v24 (F := Ideal)) (Cert.ReferenceIdeal.Read.val_main_v25 (F := Ideal) e) M := rfl

/-- THE BRIDGE: the kernel program's result function is the reference's. -/
theorem out_eq (wm : (⟨Cert.KernelIdeal.S512x256, .f32⟩ : BufTy).Contents (Elt Ideal)) (bm : (⟨Cert.KernelIdeal.S256, .f32⟩ : BufTy).Contents (Elt Ideal))
    (wu : (⟨Cert.KernelIdeal.S512x256, .f32⟩ : BufTy).Contents (Elt Ideal)) (bu γ β : (⟨Cert.KernelIdeal.S256, .f32⟩ : BufTy).Contents (Elt Ideal)) :
    Cert.KernelIdeal.KernelValue.kernelOut x e wm bm wu bu γ β
      = updArr x
          (Host.scatterAdd (F := Ideal) (φ := .f32) Cert.ReferenceIdeal.scatter_S10000x256_S320000x1_S320000x256_1_0_0_1
            (Cert.ReferenceIdeal.Read.val_main_v24 (F := Ideal)) (Cert.ReferenceIdeal.Read.val_main_v25 (F := Ideal) e)
            (msgArr (Cert.ReferenceIdeal.Read.val_main_v10 (F := Ideal) x e) (Cert.ReferenceIdeal.Read.val_main_v17 (F := Ideal) x e)
              (topHalf wm) (botHalf wm) (asRow bm)))
          (topHalf wu) (botHalf wu) (asRow bu) (asRow γ) (asRow β) := by
  unfold Cert.KernelIdeal.KernelValue.kernelOut Cert.KernelIdeal.KernelValue.kernelMsg
  rw [gather_src, gather_tgt, top_eq, bot_eq, top_eq, bot_eq, row_eq, row_eq, row_eq, row_eq, scatter_eq, conv_eq]

end Cert.Bridge

end
-- ==== Proof.lean ====
/-
  The certificate of the graph layer against its reference, over the extended reals.

  Both programs gather the rows of the node features at the edges' sources and targets, apply an affine layer to the
  concatenated 512-entry row and clamp it at zero, scatter-add the messages at the targets, apply a second clamped
  affine layer to the concatenation of the features and the aggregate, and normalise each row (mean and variance over
  its 256 entries, rsqrt, scale, shift). The kernel program computes each affine layer as two 256-term products, one
  per half of the weight matrix, block of rows by block of rows; the reference computes one 512-term product. A sum
  over 512 indices is the sum over the first 256 plus the sum over the last 256 — arithmetic of a commutative monoid,
  true of the extended reals with no finiteness —, changes of float format are the identity, and every other operation
  is the same exact operation on both sides: the two results are one function of the arguments.

  Frames: the two kernel programs' are the generated ones; the reference's is its generated run with the result dropped.
  The idealization rewrote nothing, so `preserves` is `True`.
-/
import proofs.«154356_j48120813584763_1_alg».proof.Defs
import proofs.«154356_j48120813584763_1_alg».proof.Proof.Gen.Kernel
import proofs.«154356_j48120813584763_1_alg».proof.Proof.Gen.Kernel.Skeleton
import proofs.«154356_j48120813584763_1_alg».proof.Proof.Gen.Kernel.Launch
import proofs.«154356_j48120813584763_1_alg».proof.Proof.Gen.Kernel.Points
import proofs.«154356_j48120813584763_1_alg».proof.Proof.Gen.Kernel.Frame
import proofs.«154356_j48120813584763_1_alg».proof.Proof.Gen.KernelIdeal
import proofs.«154356_j48120813584763_1_alg».proof.Proof.Gen.KernelIdeal.Skeleton
import proofs.«154356_j48120813584763_1_alg».proof.Proof.Gen.KernelIdeal.Launch
import proofs.«154356_j48120813584763_1_alg».proof.Proof.Gen.KernelIdeal.Points
import proofs.«154356_j48120813584763_1_alg».proof.Proof.Gen.KernelIdeal.Frame
import proofs.«154356_j48120813584763_1_alg».proof.Proof.Gen.ReferenceIdeal
import proofs.«154356_j48120813584763_1_alg».proof.Proof.Gen.ReferenceIdeal.Run
import proofs.«154356_j48120813584763_1_alg».proof.Proof.Gen.Pre_finite_inputs
import proofs.«154356_j48120813584763_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and both end with the result array at the kernel
    program's function of the arguments: the kernel program by its run read as a value, the reference by its run, its
    result read row by row, and the equality of the two functions. -/
theorem algebraic : Cert.algebraic_KernelIdeal_ReferenceIdeal := by
  intro m ρ m' ρ' _ hagree
  refine ⟨fun c => Cert.KernelIdeal.KernelValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_value, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
